-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x3 : Shape := ⟨2, ![16777216, 3]⟩
abbrev S16777216 : Shape := ⟨1, ![16777216]⟩
abbrev S20 : Shape := ⟨1, ![20]⟩
abbrev S_ : Shape := ⟨0, ![]⟩

class Facts : Prop where
  bcast_S_S16777216x3 : S_.BroadcastsInDim S16777216x3 (![] : Fin 0 → Fin S16777216x3.rank)
  reducesTo_S16777216x3_S_d0_1 : S16777216x3.ReducesTo [0, 1] S_
  h_S_ : 0 < S_.numel
  bcast_S_S16777216 : S_.BroadcastsInDim S16777216 (![] : Fin 0 → Fin S16777216.rank)
  reducesTo_S16777216_S_d0 : S16777216.ReducesTo [0] S_
  bcast_S_S20 : S_.BroadcastsInDim S20 (![] : Fin 0 → Fin S20.rank)
  reducesTo_S20_S_d0 : S20.ReducesTo [0] S_

variable [Facts]

def fn {F : FTy → Type} [FloatOps F] (main_arg0 : FVec F S16777216x3 .f32) (main_arg1 : FVec F S16777216 .f32) (main_arg2 : FVec F S20 .f32) : IVec S_ 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_c : IVec S_ 1 := constantI S_ 1 1#1
  let main_v3 : IVec S_ 1 := (fun x v => Host.reduce IntOp.andi x v reducesTo_S16777216x3_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  main_v13
-- ==== Kernel.lean ====
abbrev S16777216x3 : Shape := ⟨2, ![16777216, 3]⟩
abbrev S16777216 : Shape := ⟨1, ![16777216]⟩
abbrev S20 : Shape := ⟨1, ![20]⟩
abbrev S1x20 : Shape := ⟨2, ![1, 20]⟩
abbrev S16384x3 : Shape := ⟨2, ![16384, 3]⟩
abbrev S16384 : Shape := ⟨1, ![16384]⟩
abbrev S16384x1 : Shape := ⟨2, ![16384, 1]⟩
abbrev S16384x20 : Shape := ⟨2, ![16384, 20]⟩

abbrev nBuf : Space → Nat
  | .hbm => 6
  | .vmem => 5
  | .smem => 0
  | _ => 0

abbrev bufTy : (tb : Table) → Fin (tcTables nBuf tb) → BufTy
  | .hbm, ⟨0, _⟩ => ⟨S16777216x3, .f32⟩
  | .hbm, ⟨1, _⟩ => ⟨S16777216, .f32⟩
  | .hbm, ⟨2, _⟩ => ⟨S20, .f32⟩
  | .hbm, ⟨3, _⟩ => ⟨S1x20, .f32⟩
  | .hbm, ⟨4, _⟩ => ⟨S20, .f32⟩
  | .hbm, ⟨5, _⟩ => ⟨S20, .f32⟩
  | .local _ .vmem, ⟨0, _⟩ => ⟨S16384x3, .f32⟩
  | .local _ .vmem, ⟨1, _⟩ => ⟨S16384x3, .f32⟩
  | .local _ .vmem, ⟨2, _⟩ => ⟨S16384, .f32⟩
  | .local _ .vmem, ⟨3, _⟩ => ⟨S16384, .f32⟩
  | .local _ .vmem, ⟨4, _⟩ => ⟨S1x20, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x20_S1x20_0_0 : ∀ a, (![0, 0] : Fin 2 → Nat) a + S1x20.size a ≤ S1x20.size a
  h_S1x20 : 0 < S1x20.numel
  inb_S16384x3_S16384x3_0_0 : ∀ a, (![0, 0] : Fin 2 → Nat) a + S16384x3.size a ≤ S16384x3.size a
  h_S16384x3 : 0 < S16384x3.numel
  inb_S16384_S16384_0 : ∀ a, (![0] : Fin 1 → Nat) a + S16384.size a ≤ S16384.size a
  h_S16384 : 0 < S16384.numel
  slices_S16384x3_o0_0_S16384x1 : S16384x3.Slices ![0, 0] S16384x1
  shapeCasts_S16384x1_S16384 : S16384x1.ShapeCasts S16384
  slices_S16384x3_o0_1_S16384x1 : S16384x3.Slices ![0, 1] S16384x1
  iota_S16384x20_d1_w32 : S16384x20.Iotas .tc 32 [1]
  shapeCasts_S16384_S16384x1 : S16384.ShapeCasts S16384x1
  broadcasts_S16384x1_S16384x20 : S16384x1.Broadcasts S16384x20
  natLt_1_32 : 1 < 32
  reduces_S16384x20_S20 : S16384x20.Reduces [0] S20
  shapeCasts_S20_S1x20 : S20.ShapeCasts S1x20
  shapeCasts_S1x20_S1x20 : S1x20.ShapeCasts S1x20
  shapeCasts_S1x20_S20 : S1x20.ShapeCasts S20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S16777216x3.size a
  hwx0_0 : ∀ i : grid0.Coords, EltTy.bits .f32 = 32 ∨ (Rect.block (s := S16777216x3) S16384x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S16777216.size a
  hwx0_1 : ∀ i : grid0.Coords, EltTy.bits .f32 = 32 ∨ (Rect.block (s := S16777216) S16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)

variable [Facts₀]

abbrev win0_0 : Pipeline.Window sig grid0 :=
  Pipeline.Window.ofSpec (Memref.whole main_arg0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x3 : Shape := ⟨2, ![16777216, 3]⟩
abbrev S16777216 : Shape := ⟨1, ![16777216]⟩
abbrev S20 : Shape := ⟨1, ![20]⟩
abbrev S16777216x1 : Shape := ⟨2, ![16777216, 1]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16777216x3, .f32⟩
  | .hbm, ⟨1, _⟩ => ⟨S16777216, .f32⟩
  | .hbm, ⟨2, _⟩ => ⟨S20, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216x1, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .i32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i1⟩
  | .hbm, ⟨25, _⟩ => ⟨S16777216, .i1⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S_, .f32⟩
  | .hbm, ⟨38, _⟩ => ⟨S20, .f32⟩
  | .hbm, ⟨39, _⟩ => ⟨S16777216x1, .i32⟩
  | .hbm, ⟨40, _⟩ => ⟨S20, .f32⟩
  | .hbm, ⟨41, _⟩ => ⟨S20, .f32⟩
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call0_v0 : Ref sig .tc := ⟨.hbm, 27, rfl⟩
abbrev main_v19 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  slices_S16777216x3_S16777216x1_0_0 : S16777216x3.Slices ![0, 0] S16777216x1
  shapeCasts_S16777216x1_S16777216 : S16777216x1.ShapeCasts S16777216
  slices_S16777216x3_S16777216x1_0_1 : S16777216x3.Slices ![0, 1] S16777216x1
  bcast_S_S16777216 : S_.BroadcastsInDim S16777216 (![] : Fin 0 → Fin S16777216.rank)
  bcast_S_S20 : S_.BroadcastsInDim S20 (![] : Fin 0 → Fin S20.rank)
  bcast_S16777216_S16777216x1_0 : S16777216.BroadcastsInDim S16777216x1 (![0] : Fin 1 → Fin S16777216x1.rank)
  scatter_S20_S16777216x1_S16777216_n_0_0_1_wf : ScatterDims.WF S20 S16777216x1 S16777216 [] [0] [0] 1

variable [Facts₀]

def scatter_S20_S16777216x1_S16777216_n_0_0_1 : ScatterDims S20 S16777216x1 S16777216 where
  updateWindowDims := []
  insertedWindowDims := [0]
  scatterDimsToOperandDims := [0]
  indexVectorDim := 1
  wf := scatter_S20_S16777216x1_S16777216_n_0_0_1_wf

class Facts : Prop extends Facts₀ where

variable [Facts]
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.RingTally.lean ====
/-
  Mass per ring: the mathematics both programs compute (no program is mentioned here).

  A point with planar coordinates (x, y) lies at radius r = sqrt (x * x + y * y). Rings are half a unit wide, so
  the point's ring number is the integer part of (r - 0) * 2, converted to a 32-bit word; it is counted when
  0 <= ring < 20, and its slot is the ring number clipped into [0, 19]. Row n of the data contributes its
  mass to slot b when its slot is b and it is counted, and nothing otherwise; the tally of slot b is the sum of
  the contributions of all rows, and the surface density is the tally divided by the ring's area.

  Two facts are proved: dividing by one half is doubling on every extended real (so a ring number may be
  computed either way); and the sum over all rows is the sum over consecutive blocks of rows of the block sums.
-/
import Idealize.ShloMosaic.Lib.ValueIdx
import Idealize.ShloMosaic.PureOps.Ideal.Laws
import proofs.«138472_j75222057222756_1_alg».proof.Proof.LibBlockSum

noncomputable section

open scoped BigOperators

namespace Cert.Rings

open Idealize.ShloMosaic Idealize.ShloMosaic.ValueIdx

/-! ## The two literals -/

/-- The pattern of 2.0 denotes the real 2. -/
theorem two_eq : Ideal.ofBits .f32 0x40000000#32 = ((2 : ℝ) : EReal) := by
  simp [Ideal.ofBits, Ideal.ieee, -EReal.coe_mul]; norm_num

/-- The pattern of 0.5 denotes the real 1/2. -/
theorem half_eq : Ideal.ofBits .f32 0x3F000000#32 = ((1 / 2 : ℝ) : EReal) := by
  simp [Ideal.ofBits, Ideal.ieee, -EReal.coe_mul]; norm_num

/-- Dividing by one half is doubling, at the infinities too. -/
theorem div_half (u : EReal) :
    Ideal.div u (Ideal.ofBits .f32 0x3F000000#32) = u * Ideal.ofBits .f32 0x40000000#32 := by
  rw [half_eq, two_eq, Ideal.div_coe (by norm_num)]
  norm_num

/-! ## One point -/

/-- The ring number of the point (x, y): the integer part of twice its radius, as a 32-bit word. -/
def ring (x y : EReal) : BitVec 32 :=
  Ideal.fptosi 32 (Ideal.liftRound Int.floor
    ((Ideal.sqrt (x * x + y * y) - Ideal.ofBits .f32 0x00000000#32) * Ideal.ofBits .f32 0x40000000#32))

/-- The ring number clipped into [0, 19]. -/
def slot (x y : EReal) : BitVec 32 := IntOp.minsi 19#32 (IntOp.maxsi 0#32 (ring x y))

/-- Whether the point is counted: 0 <= ring < 20, as one bit. -/
def counted (x y : EReal) : BitVec 1 :=
  IntOp.andi (IntOp.cmpi .sge (ring x y) 0#32) (IntOp.cmpi .slt (ring x y) 20#32)

/-- What the point adds to its slot: its mass when counted, else zero. -/
def load (x y m : EReal) : EReal := Scalar.select (counted x y) m (Ideal.ofBits .f32 0x00000000#32)

/-- The ring number computed with a division by one half is the same word. -/
theorem ring_div (x y : EReal) :
    Ideal.fptosi 32 (Ideal.liftRound Int.floor
      (Ideal.div (Ideal.sqrt (x * x + y * y) - Ideal.ofBits .f32 0x00000000#32) (Ideal.ofBits .f32 0x3F000000#32)))
      = ring x y := by
  rw [div_half]; rfl

/-! ## All rows -/

/-- What row n of R rows adds to slot b. -/
def share {R : Nat} (pos : (⟨2, ![R, 3]⟩ : Shape).Idx → EReal) (mass : (⟨1, ![R]⟩ : Shape).Idx → EReal)
    (b : Fin 20) (n : Fin R) : EReal :=
  if (slot (pos (ix2 n (0 : Fin 3))) (pos (ix2 n (1 : Fin 3)))).toInt = (b.val : Int) then
    load (pos (ix2 n (0 : Fin 3))) (pos (ix2 n (1 : Fin 3))) (mass (ix1 n))
  else 0

/-- The same at a natural number (zero past the last row). -/
def shareAt {R : Nat} (pos : (⟨2, ![R, 3]⟩ : Shape).Idx → EReal) (mass : (⟨1, ![R]⟩ : Shape).Idx → EReal)
    (b : Fin 20) (k : Nat) : EReal :=
  if h : k < R then share pos mass b ⟨k, h⟩ else 0

/-- The mass in slot b: the sum over all rows. -/
def tally {R : Nat} (pos : (⟨2, ![R, 3]⟩ : Shape).Idx → EReal) (mass : (⟨1, ![R]⟩ : Shape).Idx → EReal)
    (b : Fin 20) : EReal :=
  ∑ n : Fin R, share pos mass b n

/-- The surface density: the tally of each slot over its area. -/
def density {R : Nat} (pos : (⟨2, ![R, 3]⟩ : Shape).Idx → EReal) (mass : (⟨1, ![R]⟩ : Shape).Idx → EReal)
    (area : (⟨1, ![20]⟩ : Shape).Idx → EReal) : (⟨1, ![20]⟩ : Shape).Idx → EReal :=
  fun i => Ideal.div (tally pos mass (i 0 : Fin 20)) (area i)

/-- The tally, with the B * J rows taken in J consecutive blocks of B. -/
theorem tally_blocks (B J : Nat) (pos : (⟨2, ![B * J, 3]⟩ : Shape).Idx → EReal)
    (mass : (⟨1, ![B * J]⟩ : Shape).Idx → EReal) (b : Fin 20) :
    ∑ s ∈ Finset.range J, ∑ j : Fin B, shareAt pos mass b (B * s + j.val) = tally pos mass b := by
  rw [BlockSum.sum_blocks B J (shareAt pos mass b)]
  unfold tally
  refine Finset.sum_congr rfl fun k _ => ?_
  unfold shareAt
  rw [dif_pos k.isLt]

end Cert.Rings

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibOneHotColumns.lean ====
/-
  One-hot columns of an index vector, and the column and row recasts around them, read at an entry (a general
  lemma: nothing here depends on a program).

  For a vector idx of R 32-bit words and a vector w of R extended reals, both spread along C columns (recast to one
  column [R, 1] and broadcast to [R, C]), the matrix "idx equals the column number" (compared against the column
  numbers laid along axis 1, widened with zeros to 32 bits and converted to a float) times the spread w holds at
  (j, b) the entry w[j] when idx[j], read signed, is b, and zero otherwise; any R, any C up to 2^31. With it: a
  32-bit word read signed is b exactly when it is the word b; one column k of an [R, K] matrix sliced out as
  [R, 1] and recast to [R] holds at j the matrix at (j, k); a vector [C] recast to one row [1, C] holds at (0, b)
  the vector at b.
-/
import Idealize.ShloMosaic.Lib.ValueIdx
import Idealize.ShloMosaic.Lib.Pipeline.Value
import Idealize.ShloMosaic.PureOps.Ideal.Laws
import proofs.«138472_j75222057222756_1_alg».proof.Proof.LibLayoutCol

noncomputable section

namespace Cert.Lib.OneHot

open Idealize.ShloMosaic Idealize.ShloMosaic.ValueIdx

/-- A 32-bit word read signed is b < 2^31 exactly when it is the word b. -/
theorem toInt_eq_iff (a : BitVec 32) (b : Nat) (hb : b < 2147483648) :
    a.toInt = (b : Int) ↔ a = BitVec.ofNat 32 b := by
  constructor
  · intro h
    apply BitVec.eq_of_toInt_eq
    rw [h, BitVec.toInt_eq_toNat_cond, BitVec.toNat_ofNat]
    omega
  · rintro rfl
    rw [BitVec.toInt_eq_toNat_cond, BitVec.toNat_ofNat]
    omega

/-- The bit "a = b", widened with zeros to 32 bits and converted to a number, times w: w when a is b, else 0. -/
theorem onehot_mul (a : BitVec 32) (b : Nat) (hb : b < 2147483648) (w : EReal) :
    ((((IntOp.cmpi .eq a (BitVec.ofNat 32 b)).setWidth 32).toInt : ℝ) : EReal) * w
      = if a.toInt = (b : Int) then w else 0 := by
  by_cases h : a = BitVec.ofNat 32 b
  · rw [if_pos ((toInt_eq_iff a b hb).mpr h)]
    subst h
    simp [IntOp.cmpi]
  · rw [if_neg (fun h' => h ((toInt_eq_iff a b hb).mp h'))]
    have : (a == BitVec.ofNat 32 b) = false := by simpa using h
    simp [IntOp.cmpi, this]

/-- Column k of an [R, K] matrix, sliced out as one column (offsets (0, k)) and recast to a vector: at row j the
    matrix at (j, k). -/
theorem column_apply {α : Type} {R K : Nat} (x : (⟨2, ![R, K]⟩ : Shape).Idx → α) (off : Fin 2 → Nat) (k : Fin K)
    (h0 : off 0 = 0) (h1 : off 1 = k.val)
    (hs : (⟨2, ![R, K]⟩ : Shape).Slices off ⟨2, ![R, 1]⟩) (hc : (⟨2, ![R, 1]⟩ : Shape).ShapeCasts ⟨1, ![R]⟩)
    (j : Fin R) :
    shapeCast ⟨1, ![R]⟩ (extractStridedSlice ⟨2, ![R, 1]⟩ off x hs) hc (ix1 j) = x (ix2 j k) := by
  refine (shapeCast_apply _ hc (ix1 j) (ix2 j (0 : Fin 1)) ?_).trans ?_
  · rw [Shape.rowMajor_val_two, Shape.rowMajor_val_one]
    show j.val * 1 + 0 = j.val
    omega
  · exact extractStridedSlice_apply off x hs (ix2 j (0 : Fin 1)) (ix2 j k) (fun a => match a with
      | ⟨0, _⟩ => by show j.val = off 0 + j.val; omega
      | ⟨1, _⟩ => by show k.val = off 1 + 0; omega)

/-- A vector of C entries recast to one row [1, C]: at (0, b) the vector at b. -/
theorem rowCast_apply {α : Type} {C : Nat} (v : (⟨1, ![C]⟩ : Shape).Idx → α)
    (h : (⟨1, ![C]⟩ : Shape).ShapeCasts ⟨2, ![1, C]⟩) (b : Fin C) :
    shapeCast ⟨2, ![1, C]⟩ v h (ix2 (0 : Fin 1) b) = v (ix1 b) := by
  refine shapeCast_apply v h (ix2 (0 : Fin 1) b) (ix1 b) ?_
  rw [Shape.rowMajor_val_one, Shape.rowMajor_val_two]
  show b.val = 0 * C + b.val
  omega

/-- The one-hot matrix of an index vector times a weight vector spread along the columns, at (j, b): the weight of
    row j when its index, read signed, is b, else zero. -/
theorem onehotTimes_apply {R C : Nat} (hC : C ≤ 2147483648) (idx : IVec ⟨1, ![R]⟩ 32)
    (w : (⟨1, ![R]⟩ : Shape).Idx → EReal)
    (hi : (⟨2, ![R, C]⟩ : Shape).Iotas .tc 32 [1]) (hc : (⟨1, ![R]⟩ : Shape).ShapeCasts ⟨2, ![R, 1]⟩)
    (hb : (⟨2, ![R, 1]⟩ : Shape).Broadcasts ⟨2, ![R, C]⟩) (h132 : 1 < 32) (j : Fin R) (b : Fin C) :
    mulf (F := Ideal) (φ := .f32)
        (sitofp .f32 (extui 32 (cmpi .eq (broadcastTo ⟨2, ![R, C]⟩ (shapeCast ⟨2, ![R, 1]⟩ idx hc) hb)
          (iota .tc ⟨2, ![R, C]⟩ 32 [1] hi)) h132))
        (broadcastTo ⟨2, ![R, C]⟩ (shapeCast ⟨2, ![R, 1]⟩ w hc) hb) (ix2 j b)
      = if (idx (ix1 j)).toInt = (b.val : Int) then w (ix1 j) else 0 := by
  show ((((IntOp.cmpi .eq (broadcastTo ⟨2, ![R, C]⟩ (shapeCast ⟨2, ![R, 1]⟩ idx hc) hb (ix2 j b))
      (iota .tc ⟨2, ![R, C]⟩ 32 [1] hi (ix2 j b))).setWidth 32).toInt : ℝ) : EReal)
      * (broadcastTo ⟨2, ![R, C]⟩ (shapeCast ⟨2, ![R, 1]⟩ w hc) hb (ix2 j b)) = _
  rw [Cert.Lib.LayoutCol.bcastCol_apply idx hc hb j b, Cert.Lib.LayoutCol.bcastCol_apply w hc hb j b,
    iota_single_apply]
  exact onehot_mul (idx (ix1 j)) b.val (by have := b.isLt; omega) (w (ix1 j))

end Cert.Lib.OneHot

end
-- ==== Proof.BlockShare.lean ====
/-
  One block of rows: what the kernel body computes from a block of positions and a block of masses.

  The body takes columns 0 and 1 of the position block as the planar coordinates, computes each row's slot and
  load, multiplies the one-hot row of the slot (against the slot numbers 0 .. 19 laid along the columns) by the
  load, and sums the resulting [rows, 20] matrix down its columns. Entry b of the result is therefore the sum over
  the block's rows of what each row adds to slot b.
-/
import proofs.«138472_j75222057222756_1_alg».proof.Proof.Gen.KernelIdeal.Skeleton
import proofs.«138472_j75222057222756_1_alg».proof.Proof.RingTally
import proofs.«138472_j75222057222756_1_alg».proof.Proof.LibAxisSum
import proofs.«138472_j75222057222756_1_alg».proof.Proof.LibOneHotColumns
import Idealize.ShloMosaic.Lib.Pipeline.Value
import Idealize.ShloMosaic.Lib.ValueIdx

noncomputable section

open scoped BigOperators

namespace Cert.KernelIdeal.Block

open Idealize.ShloMosaic Idealize.ShloMosaic.ValueIdx Cert.KernelIdeal Cert.KernelIdeal.Gen Cert.Rings

/-! ## The body's partial result -/

/-- Entry b of the body's partial result from a block: the sum over the block's rows of what each adds to slot b. -/
theorem partial_apply (x0 : Vec Ideal S16384x3 .f32) (x1 : Vec Ideal S16384 .f32) (b : Fin 20) :
    k0_pay3 (F := Ideal) x0 x1 (ix2 (0 : Fin 1) b) = ∑ j : Fin 16384, share x0 x1 b j := by
  unfold k0_pay3
  dsimp only
  refine (Cert.Lib.OneHot.rowCast_apply _ _ b).trans ?_
  refine (Cert.Lib.AxisSum.colSum_apply _ _ _ _ _ b).trans ?_
  refine Finset.sum_congr rfl fun j _ => ?_
  refine (Cert.Lib.OneHot.onehotTimes_apply (by decide) _ _ _ _ _ _ j b).trans ?_
  have hX : shapeCast S16384 (extractStridedSlice S16384x1 ![0, 0] x0 slices_S16384x3_o0_0_S16384x1)
      shapeCasts_S16384x1_S16384 (ix1 j) = x0 (ix2 j (0 : Fin 3)) :=
    Cert.Lib.OneHot.column_apply x0 ![0, 0] (0 : Fin 3) rfl rfl _ _ j
  have hY : shapeCast S16384 (extractStridedSlice S16384x1 ![0, 1] x0 slices_S16384x3_o0_1_S16384x1)
      shapeCasts_S16384x1_S16384 (ix1 j) = x0 (ix2 j (1 : Fin 3)) :=
    Cert.Lib.OneHot.column_apply x0 ![0, 1] (1 : Fin 3) rfl rfl _ _ j
  unfold share
  rw [← hX, ← hY]
  rfl

end Cert.KernelIdeal.Block

end
-- ==== Proof.Accumulate.lean ====
/-
  The histogram accumulated over the grid, point by point.

  Grid point t stages rows 16384 t .. 16384 t + 16383 of the positions and of the masses. At the first point the
  body stores zeros, reads them back and adds the block's partial histogram; at every later point it adds the
  block's partial histogram to what the point before left (the output block never moves). So after point n the
  staged histogram holds, at slot b, the sum over the blocks 0 .. n of the block sums: by induction on the point.
-/
import proofs.«138472_j75222057222756_1_alg».proof.Proof.Gen.KernelIdeal.Frame
import proofs.«138472_j75222057222756_1_alg».proof.Proof.BlockShare
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Accum

open Idealize.ShloMosaic.ValueIdx Cert.KernelIdeal Cert.KernelIdeal.Gen Cert.Rings

/-! ## What each case of the body leaves, for any float values -/

section AnyValues

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The first point: zeros are stored and read back, and the block's partial histogram is added to them. -/
theorem first_point (c : Dev nD) (i : grid0.Coords) (a1 : Memref sig .tc .vmem S16384x3 .f32) (h1 : a1.IsWhole)
    (a2 : Memref sig .tc .vmem S16384 .f32) (h2 : a2.IsWhole) (a3 : Memref sig .tc .vmem S1x20 .f32) (h3 : a3.IsWhole)
    (hc : cond0_0 i) (x0 : Vec F S16384x3 .f32) (x1 : Vec F S16384 .f32) :
    out0_A_2 c i a1 h1 a2 h2 a3 h3 hc x0 x1
      = addf (broadcast S1x20 (Scalar.ofBits .f32 0x00000000#32)) (k0_pay3 x0 x1) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x20) hz2, View.readCov_unit_zero (S := S1x20) _ hz2]
  unfold k0_pay1 k0_pay2 k0_pay4
  simp only [View.readAt_eq_ld, h1.read_unread, h2.read_unread, View.ld_unit_zero (S := S16384x3) hz2,
    View.ld_unit_zero (S := S16384) hz1, shapeCast_self]

/-- A later point: the block's partial histogram is added to what the staging buffer held. -/
theorem later_point (c : Dev nD) (i : grid0.Coords) (a1 : Memref sig .tc .vmem S16384x3 .f32) (h1 : a1.IsWhole)
    (a2 : Memref sig .tc .vmem S16384 .f32) (h2 : a2.IsWhole) (a3 : Memref sig .tc .vmem S1x20 .f32) (h3 : a3.IsWhole)
    (hc : ¬cond0_0 i) (x0 : Vec F S16384x3 .f32) (x1 : Vec F S16384 .f32) (xo : Vec F S1x20 .f32) :
    out0_B_2 c i a1 h1 a2 h2 a3 h3 hc x0 x1 xo = addf xo (k0_pay3 x0 x1) := by
  unfold out0_B_2
  rw [View.read_writes_eq_canon _ _ _ (cover0_B_2 c i a1 h1 a2 h2 a3 h3 hc x0 x1 xo)]
  unfold kernelRun0_B
  dsimp only
  sl_unfold_words
  rw [View.canon_unit_zero (S := S1x20) hz2]
  unfold k0_pay1 k0_pay4
  simp only [View.readAt_eq_ld, h1.read_unread, h2.read_unread, h3.read_unread, View.ld_unit_zero (S := S16384x3) hz2,
    View.ld_unit_zero (S := S16384) hz1, View.ld_unit_zero (S := S1x20) hz2, shapeCast_self]

end AnyValues

/-! ## At the extended reals -/

variable (m : (ℓ : Loc nD τ sig) → Buf (Elt Ideal) ℓ) (ρ : Dev nD → PrngReg)

/-- The position and mass arrays as the region finds them, and the blocks of them point t stages. -/
abbrev posArr (c : Dev nD) : Vec Ideal S16777216x3 .f32 := V m c main_arg0
abbrev massArr (c : Dev nD) : Vec Ideal S16777216 .f32 := V m c main_arg1
abbrev posBlk (c : Dev nD) (t : Fin cfg0.N) : Vec Ideal S16384x3 .f32 := iblk m c 0 t
abbrev massBlk (c : Dev nD) (t : Fin cfg0.N) : Vec Ideal S16384 .f32 := iblk m c 1 t

/-- Where the blocks sit: point t's position block starts at block row t, column block 0; its mass block at
    block t; the output block is always block (0, 0). Decided over the grid. -/
theorem block_origin : ∀ t : Fin cfg0.N, win0_0.index t (0 : Fin 2) = t.val ∧ win0_0.index t (1 : Fin 2) = 0
    ∧ win0_1.index t (0 : Fin 1) = t.val ∧ win0_2.index t (0 : Fin 2) = 0 ∧ win0_2.index t (1 : Fin 2) = 0 :=
  (by decide +kernel : ∀ t : Fin grid0.N, win0_0.index t (0 : Fin 2) = t.val ∧ win0_0.index t (1 : Fin 2) = 0
    ∧ win0_1.index t (0 : Fin 1) = t.val ∧ win0_2.index t (0 : Fin 2) = 0 ∧ win0_2.index t (1 : Fin 2) = 0)

/-- Row j of point t's position block is row 16384 t + j of the positions. -/
theorem posBlk_apply (c : Dev nD) (t : Fin cfg0.N) (j : Fin 16384) (a : Fin 3)
    (h : 16384 * t.val + j.val < 16777216) :
    posBlk m c t (ix2 j a) = posArr m c (ix2 ⟨16384 * t.val + j.val, h⟩ a) := by
  show V m c main_arg0 (((cfg0.win 0).blk t).view.emb (ix2 j a)) = V m c main_arg0 (ix2 ⟨16384 * t.val + j.val, h⟩ a)
  refine congrArg (V m c main_arg0) (funext fun d => Fin.ext ?_)
  obtain ⟨e0, e1, -, -, -⟩ := block_origin t
  match d with
  | ⟨0, _⟩ =>
    show win0_0.index t (0 : Fin 2) * 16384 + 1 * j.val = 16384 * t.val + j.val
    omega
  | ⟨1, _⟩ =>
    show win0_0.index t (1 : Fin 2) * 3 + 1 * a.val = a.val
    omega

/-- Entry j of point t's mass block is entry 16384 t + j of the masses. -/
theorem massBlk_apply (c : Dev nD) (t : Fin cfg0.N) (j : Fin 16384) (h : 16384 * t.val + j.val < 16777216) :
    massBlk m c t (ix1 j) = massArr m c (ix1 ⟨16384 * t.val + j.val, h⟩) := by
  show V m c main_arg1 (((cfg0.win 1).blk t).view.emb (ix1 j)) = V m c main_arg1 (ix1 ⟨16384 * t.val + j.val, h⟩)
  refine congrArg (V m c main_arg1) (funext fun d => Fin.ext ?_)
  obtain ⟨-, -, e2, -, -⟩ := block_origin t
  match d with
  | ⟨0, _⟩ =>
    show win0_1.index t (0 : Fin 1) * 16384 + 1 * j.val = 16384 * t.val + j.val
    omega

/-- What row j of point t's blocks adds to slot b is what row 16384 t + j of the arrays adds. -/
theorem share_block (c : Dev nD) (t : Fin cfg0.N) (b : Fin 20) (j : Fin 16384) :
    share (posBlk m c t) (massBlk m c t) b j = shareAt (posArr m c) (massArr m c) b (16384 * t.val + j.val) := by
  have hN : t.val < 1024 := lt_of_lt_of_eq t.isLt (show cfg0.N = 1024 from N_0)
  have hj := j.isLt
  have h : 16384 * t.val + j.val < 16777216 := by omega
  unfold shareAt
  rw [dif_pos h]
  unfold share
  rw [posBlk_apply m c t j 0 h, posBlk_apply m c t j 1 h, massBlk_apply m c t j h]

/-- The partial histogram of point t's blocks at slot b: the sum over the block's rows. -/
theorem partial_block (c : Dev nD) (t : Fin cfg0.N) (b : Fin 20) :
    k0_pay3 (F := Ideal) (posBlk m c t) (massBlk m c t) (ix2 (0 : Fin 1) b)
      = ∑ j : Fin 16384, shareAt (posArr m c) (massArr m c) b (16384 * t.val + j.val) :=
  (Block.partial_apply (posBlk m c t) (massBlk m c t) b).trans
    (Finset.sum_congr rfl fun j _ => share_block m c t b j)

/-- Slot b after point n: the sum over the blocks 0 .. n of the block sums. -/
def running (c : Dev nD) (b : Fin 20) (n : ℕ) : EReal :=
  ∑ s ∈ Finset.range (n + 1), ∑ j : Fin 16384, shareAt (posArr m c) (massArr m c) b (16384 * s + j.val)

/-- The staged histogram after point n holds the running sums: by induction on the point. -/
theorem outsAt_apply (c : Dev nD) (b : Fin 20) :
    ∀ (n : ℕ) (h : n < cfg0.N), outsAt0 m c n h (ix2 (0 : Fin 1) b) = running m c b n
  | 0, h => by
    rw [outsAt0_A m c ⟨0, h⟩ rfl]
    refine (congrFun (first_point (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) ((hcond0_0 ⟨0, h⟩).mpr rfl)
      (posBlk m c ⟨0, h⟩) (massBlk m c ⟨0, h⟩)) (ix2 (0 : Fin 1) b)).trans ?_
    show Ideal.ofBits .f32 0x00000000#32 + k0_pay3 (F := Ideal) (posBlk m c ⟨0, h⟩) (massBlk m c ⟨0, h⟩) (ix2 (0 : Fin 1) b) = _
    rw [Ideal.ofBits_zero_f32, zero_add, partial_block]
    unfold running
    rw [Finset.sum_range_one]
  | n + 1, h => by
    have hN : cfg0.N = 1024 := N_0
    have hB : ¬(⟨n + 1, h⟩ : Fin cfg0.N).val % 1024 = 0 := by dsimp only; omega
    rw [outsAt0_B m c ⟨n + 1, h⟩ hB]
    refine (congrFun (later_point (F := Ideal) c (grid0.coords ⟨n + 1, h⟩) (ms0_0 ⟨n + 1, h⟩) (hs0_0 ⟨n + 1, h⟩)
      (ms0_1 ⟨n + 1, h⟩) (hs0_1 ⟨n + 1, h⟩) (ms0_2 ⟨n + 1, h⟩) (hs0_2 ⟨n + 1, h⟩)
      (fun hh => hB ((hcond0_0 ⟨n + 1, h⟩).mp hh)) (posBlk m c ⟨n + 1, h⟩) (massBlk m c ⟨n + 1, h⟩)
      (outsAt0 m c n (Nat.lt_of_succ_lt h))) (ix2 (0 : Fin 1) b)).trans ?_
    show outsAt0 m c n (Nat.lt_of_succ_lt h) (ix2 (0 : Fin 1) b)
      + k0_pay3 (F := Ideal) (posBlk m c ⟨n + 1, h⟩) (massBlk m c ⟨n + 1, h⟩) (ix2 (0 : Fin 1) b) = _
    rw [outsAt_apply c b n, partial_block]
    unfold running
    rw [Finset.sum_range_succ _ (n + 1)]

end Cert.KernelIdeal.Accum

end
-- ==== Proof.Surface.lean ====
/-
  The kernel's run, read: the accumulated histogram written back once, then divided by the ring areas.

  The output block never moves and is written back after the last grid point only, so the [1, 20] histogram array
  ends holding, at slot b, the sum over all 1024 blocks of the block sums: the tally of all rows. The two host
  operations after the region recast the [1, 20] histogram to [20] and divide it by the ring areas: the surface
  density of the arguments.
-/
import proofs.«138472_j75222057222756_1_alg».proof.Proof.Accumulate

noncomputable section

open scoped BigOperators

open Idealize.ShloMosaic Idealize.ShloMosaic.TcCoe Idealize.SL.Sem
open Idealize.ShloMosaic.Pipeline (Dat)

namespace Cert.KernelIdeal.Surface

open Idealize.ShloMosaic.ValueIdx Cert.KernelIdeal Cert.KernelIdeal.Gen Cert.Rings Cert.KernelIdeal.Accum

variable (m : (ℓ : Loc nD τ sig) → Buf (Elt Ideal) ℓ) (ρ : Dev nD → PrngReg)

/-! ## The array the region leaves -/

/-- The histogram after the last point, in closed form: at (0, b) the sum over all 1024 blocks of the block sums. -/
def hist (c : Dev nD) : Vec Ideal S1x20 .f32 := fun i => running m c (i 1 : Fin 20) 1023

/-- What the staging buffer holds after the last point is that histogram. -/
theorem outs_last (c : Dev nD) (t : Fin cfg0.N) (h3 : t.val = 1023) : outsAt0 m c t.val t.isLt = hist m c := by
  funext i
  obtain ⟨z, b, rfl⟩ : ∃ (z : Fin 1) (b : Fin 20), i = ix2 z b := ⟨i 0, i 1, eq_ix2 i⟩
  obtain rfl : z = 0 := Subsingleton.elim _ _
  rw [outsAt_apply m c b t.val t.isLt, h3]
  rfl

/-- The one write-back, after the last point, writes the whole [1, 20] array: its block (0, 0). -/
theorem flushed_eq (c : Dev nD) (t : Fin cfg0.N) (hf : (cfg0.win 2).flush t = true) :
    (dats m 0 c).flushed 2 t = ((cfg0.win 2).blk t).view.read (Elt Ideal) (hist m c) := by
  have hN : cfg0.N = 1024 := N_0
  have h3 : t.val = 1023 := by have := (flush0_2 t).mp hf; have := t.isLt; omega
  obtain ⟨-, -, -, e3, e4⟩ := block_origin t
  show (cfg0.win 2).cut (grid0.coords t) ((dats m 0 c).after 2 t) = _
  rw [after0_2, outs_last m c t h3]
  have hz' : (fun a => win0_2.index t a * main_v0.ty.shape.size a) = fun _ => 0 :=
    funext fun a => match a with
      | ⟨0, _⟩ => by show win0_2.index t (0 : Fin 2) * 1 = 0; omega
      | ⟨1, _⟩ => by show win0_2.index t (1 : Fin 2) * 20 = 0; omega
  exact (Memref.read_access_unit_zero (Elt Ideal) main_v0 hz' (fun a => by rw [congrFun hz' a]; simp) (hist m c)).symm

theorem last_lt : 1023 < cfg0.N := by rw [show cfg0.N = 1024 from N_0]; decide

/-- So the histogram array ends holding that histogram: the last point's block is the whole array. -/
theorem final_hist (c : Dev nD) : (dats m 0 c).arrAt 2 cfg0.N = hist m c :=
  (dats m 0 c).arrAt_eq_of_cover 2 (hist m c) (flushed_eq m c) fun i =>
    ⟨⟨1023, last_lt⟩, (flush0_2 ⟨1023, last_lt⟩).mpr rfl, by
      obtain ⟨-, -, -, e3, e4⟩ := block_origin ⟨1023, last_lt⟩
      show i ∈ ((View.whole main_v0).slice (win0_2.rect ⟨1023, last_lt⟩)).set
      rw [View.set_slice_whole, Rect.mem_set_unit]
      intro a
      have h0 : (i 0 : Nat) < 1 := (i 0).isLt
      have h1 : (i 1 : Nat) < 20 := (i 1).isLt
      match a with
      | ⟨0, _⟩ =>
        show win0_2.index ⟨1023, last_lt⟩ (0 : Fin 2) * 1 ≤ (i 0 : Nat)
          ∧ (i 0 : Nat) < win0_2.index ⟨1023, last_lt⟩ (0 : Fin 2) * 1 + 1
        omega
      | ⟨1, _⟩ =>
        show win0_2.index ⟨1023, last_lt⟩ (1 : Fin 2) * 20 ≤ (i 1 : Nat)
          ∧ (i 1 : Nat) < win0_2.index ⟨1023, last_lt⟩ (1 : Fin 2) * 20 + 20
        omega⟩

/-! ## The host operations after the region -/

/-- The result buffer after the recast and the division: the surface density of the arguments. -/
theorem result_eq (c : Dev nD) :
    Pipeline.afterTail₀ cfgs (dats m) 0 (V0 m) [hostOps1] c main_v2
      = density (R := 16777216) (m ((c : Thread nD τ).loc main_arg0)) (m ((c : Thread nD τ).loc main_arg1))
          (m ((c : Thread nD τ).loc main_arg2)) := by
  unfold Pipeline.afterTail₀
  show StableHlo.after hostOps1 _ (Proc.devRef .tc main_v2) = _
  after_results
  have hv0 : Pipeline.withArrays (cfgs 0).spec c (V0 m c) (fun w => (dats m 0 c).arrAt w (cfgs 0).N)
      (Proc.devRef .tc main_v0) = hist m c :=
    (Pipeline.withArrays_arr spec0 launch0.win.arr_inj c _ _ 2).trans (final_hist m c)
  have ha2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [hv0, ha2]
  funext i
  obtain ⟨b, rfl⟩ : ∃ b : Fin 20, i = ix1 b := ⟨i 0, eq_ix1 i⟩
  show Ideal.div (shapeCast S20 (hist m c) shapeCasts_S1x20_S20 (ix1 b)) (m ((c : Thread nD τ).loc main_arg2) (ix1 b))
    = Ideal.div (tally (R := 16777216) (m ((c : Thread nD τ).loc main_arg0)) (m ((c : Thread nD τ).loc main_arg1)) b)
        (m ((c : Thread nD τ).loc main_arg2) (ix1 b))
  refine congrArg (fun u => Ideal.div u (m ((c : Thread nD τ).loc main_arg2) (ix1 b))) ?_
  refine (shapeCast_apply (hist m c) shapeCasts_S1x20_S20 (ix1 b) (ix2 (0 : Fin 1) b) ?_).trans ?_
  · rw [Shape.rowMajor_val_two, Shape.rowMajor_val_one]
    show 0 * 20 + b.val = b.val
    omega
  · exact tally_blocks 16384 1024 (posArr m c) (massArr m c) b

/-! ## The run -/

/-- Every weakly fair execution of the kernel program terminates with the result buffer at the surface density of
    the arguments and the arguments unchanged. -/
theorem run : θ_run defs (onTc (τ := τ) (main (F := Ideal))) ⟨m, fun _ => 0, ρ⟩ fun r => ∀ c : Dev nD,
      r.2.mem ((c : Thread nD τ).loc main_v2)
        = density (R := 16777216) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩)
    (run_main m ρ)

end Cert.KernelIdeal.Surface

end
-- ==== Proof.LibVecGatherScatter.lean ====
/-
  A gather and a scatter-add of a vector, read at an entry (a general lemma: nothing here depends on a program).

  For an operand of shape [N], index arrays of shape [E, 1] and updates of shape [E], the scatter-add (no update
  window axis, inserted window axis 0, scatter axis 0, index vector axis 1) at entry n is x[n] plus the sum, over
  the positions e whose index idx[e], read signed, is n, of the update e: a position whose index is not an entry
  of the operand contributes nothing. The gather (no offset axis, collapsed axis 0, start index map [0], index
  vector axis 1, slice sizes [1]) at e is the operand at min(idx[e], N - 1) (the index read signed and clamped).
-/
import Idealize.ShloMosaic.Lib.ValueIdx
import Idealize.ShloMosaic.PureOps.Ideal.Laws

noncomputable section

namespace Cert.Lib.VecPass

open Idealize.ShloMosaic Idealize.ShloMosaic.ValueIdx

section Generic

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The only axis of a rank-1 shape is 0. -/
theorem fin1_eq (a : Fin 1) : a = 0 := Subsingleton.elim _ _

/-- The vector scatter's dimension numbers over an operand [N], indices [E, 1] and updates [E]. -/
abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at idx[e], read signed. -/
theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

/-- The operand's one axis is inserted: the window coordinate there is 0. -/
theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

/-- Update e lands at n exactly when idx[e] = n (an update whose idx[e] is not an entry lands nowhere). -/
theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

/-- The scatter-add at entry n: x[n] plus the sum over the positions e with idx[e] = n of the update e. -/
theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

/-- The vector gather's dimension numbers over an operand [N], start indices [E, 1] and a result [E]. -/
abbrev gaD1 (N E : Nat) (wfg : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wfg

variable (wfg : GatherDims.WF ⟨1, ![N]⟩ ⟨2, ![E, 1]⟩ ⟨1, ![E]⟩ [] [0] [] [0] [] 1 ![1])

/-- The slice of result e starts at idx[e], read signed and clamped into [0, N - 1]. -/
theorem ga1_start (idx : IVec ⟨2, ![E, 1]⟩ w) (e : Fin E) :
    (gaD1 N E wfg).start (ix1 e) idx 0 = min (idx (ix2 e 0)).toInt.toNat (N - 1) := by
  unfold GatherDims.start
  rw [dif_pos (show (0 : Fin 1) ∈ (gaD1 N E wfg).startIndexMap from List.mem_singleton.mpr rfl)]
  have hsi : (gaD1 N E wfg).siIdx (ix1 e) ⟨List.idxOf (0 : Fin 1) (gaD1 N E wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- The operand's one axis is collapsed: the offset coordinate there is 0. -/
theorem ga1_off (e : Fin E) : (gaD1 N E wfg).offCoord (ix1 e) 0 = 0 := by
  unfold GatherDims.offCoord
  have h : (0 : Fin 1) ∉ (gaD1 N E wfg).sKept :=
    (by decide : (0 : Fin 1) ∉ (List.finRange 1).filter (fun a => a ∉ ([0] ++ [] : List (Fin 1))))
  rw [dif_neg h]

/-- The gather at e: the operand at min(idx[e], N - 1). -/
theorem ga1_apply {α : Type} (hN : 0 < N) (H : (⟨1, ![N]⟩ : Shape).Idx → α) (idx : IVec ⟨2, ![E, 1]⟩ w)
    (e : Fin E) :
    Host.gather (gaD1 N E wfg) H idx (ix1 e)
      = H (ix1 ⟨min (idx (ix2 e 0)).toInt.toNat (N - 1), by omega⟩) := by
  unfold Host.gather
  congr 1
  funext a
  refine Fin.ext ?_
  obtain rfl := fin1_eq a
  show (gaD1 N E wfg).start (ix1 e) idx 0 + (gaD1 N E wfg).batchCoord (ix1 e) 0
    + (gaD1 N E wfg).offCoord (ix1 e) 0 = min (idx (ix2 e 0)).toInt.toNat (N - 1)
  rw [ga1_start, ga1_off, GatherDims.batchCoord_eq_zero _ _ _ List.not_mem_nil, Nat.add_zero]

end Generic

end Cert.Lib.VecPass

end
-- ==== Proof.LibHostScatterVec.lean ====
/-
  The host's accumulating scatter of a vector, read at an entry (a general lemma: nothing here depends on a
  program).

  For an operand [N], index arrays [E, 1] and updates [E]: when the scatter's dimension numbers are the vector
  scatter's (no update window axis, operand axis 0 inserted and scattered, index vectors along axis 1), entry n of
  the result is the operand's entry n plus the sum of the updates whose index, read signed, is n. The record is a
  variable with an equation to the vector scatter's record, so that a use site proves the equation of the two
  small records by itself and never compares sums over the update positions.
-/
import Idealize.ShloMosaic.Lib.ValueIdx
import Idealize.ShloMosaic.PureOps.Ideal.Laws
import proofs.«138472_j75222057222756_1_alg».proof.Proof.LibVecGatherScatter

noncomputable section

open scoped BigOperators

namespace Cert.Lib.HostScatterVec

open Idealize.ShloMosaic Idealize.ShloMosaic.ValueIdx

/-- Entry n of the host's scatter-add of a vector: the operand's entry plus the updates that land on it. -/
theorem hostScatter_apply {N E w : Nat} (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = Cert.Lib.VecPass.scD1 N E wf)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e (0 : Fin 1))).toInt = (n.val : Int) then upd (ix1 e) else 0 := by
  subst hd
  exact Cert.Lib.VecPass.sc1_apply wf x idx upd n

end Cert.Lib.HostScatterVec

end
-- ==== Proof.RefTally.lean ====
/-
  The reference's result, entry by entry.

  The reference computes each row's ring number with a division by one half, clips it, masks the mass, and
  scatter-adds the masked masses into twenty zeros at the clipped ring numbers; the result over the ring areas is
  the surface density. Read at slot b, the scatter-add is zero plus the sum over the rows whose slot is b of
  their loads: the tally.
-/
import proofs.«138472_j75222057222756_1_alg».proof.Proof.Gen.ReferenceIdeal.Read
import proofs.«138472_j75222057222756_1_alg».proof.Proof.RingTally
import proofs.«138472_j75222057222756_1_alg».proof.Proof.LibHostScatterVec

noncomputable section

open scoped BigOperators

namespace Cert.ReferenceIdeal.Tally

open Idealize.ShloMosaic Idealize.ShloMosaic.ValueIdx Cert.ReferenceIdeal Cert.ReferenceIdeal.Gen
  Cert.ReferenceIdeal.Read Cert.Rings

/-- Row n's first planar coordinate is read at (n, 0) … -/
theorem coord0 (n : Fin 16777216) : idx_main_v0 (idx_main_v1 (ix1 n)) = ix2 n (0 : Fin 3) := by
  funext a
  match a with
  | ⟨0, _⟩ => exact Fin.ext (Nat.div_one _)
  | ⟨1, _⟩ => rfl

/-- … and its second at (n, 1). -/
theorem coord1 (n : Fin 16777216) : idx_main_v3 (idx_main_v4 (ix1 n)) = ix2 n (1 : Fin 3) := by
  funext a
  match a with
  | ⟨0, _⟩ => exact Fin.ext (Nat.div_one _)
  | ⟨1, _⟩ => rfl

/-- The reference's ring number of row n (computed with a division by one half) is the ring number. -/
theorem ring_apply (x0 : (⟨S16777216x3, .f32⟩ : BufTy).Contents (Elt Ideal)) (n : Fin 16777216) :
    val_main_v13 (F := Ideal) x0 (ix1 n) = ring (x0 (ix2 n (0 : Fin 3))) (x0 (ix2 n (1 : Fin 3))) := by
  rw [val_main_v13_apply, val_main_v12_apply, val_main_v11_apply, val_main_v10_apply, val_main_cst_0_apply,
    val_main_v9_apply, val_main_v8_apply, val_main_cst_apply, val_main_v7_apply, val_main_v6_apply,
    val_main_v5_apply, val_main_v4_apply, val_main_v3_apply, val_main_v2_apply, val_main_v1_apply,
    val_main_v0_apply, coord0, coord1]
  exact ring_div _ _

/-- The reference's clipped ring number of row n is the slot. -/
theorem slot_apply (x0 : (⟨S16777216x3, .f32⟩ : BufTy).Contents (Elt Ideal)) (n : Fin 16777216) :
    val_main_v20 (F := Ideal) x0 (ix1 n) = slot (x0 (ix2 n (0 : Fin 3))) (x0 (ix2 n (1 : Fin 3))) := by
  rw [val_main_v20_apply, val_main_call1_v4_apply, val_main_call1_v3_apply, val_main_c_4_apply,
    val_main_call1_v2_apply, val_main_call1_v1_apply, val_main_call1_v0_apply, val_main_c_3_apply, ring_apply]
  rfl

/-- The reference's masked mass of row n is the load. -/
theorem load_apply (x0 : (⟨S16777216x3, .f32⟩ : BufTy).Contents (Elt Ideal))
    (x1 : (⟨S16777216, .f32⟩ : BufTy).Contents (Elt Ideal)) (n : Fin 16777216) :
    val_main_v19 (F := Ideal) x0 x1 (ix1 n)
      = load (x0 (ix2 n (0 : Fin 3))) (x0 (ix2 n (1 : Fin 3))) (x1 (ix1 n)) := by
  rw [val_main_v19_apply, val_main_v18_apply, val_main_v15_apply, val_main_v17_apply, val_main_v14_apply,
    val_main_c_apply, val_main_v16_apply, val_main_c_1_apply, val_main_call0_v0_apply, val_main_cst_2_apply,
    ring_apply]
  rfl

/-- The index column holds row e's slot at (e, 0). -/
theorem indexColumn (e : Fin 16777216) : idx_main_v22 (ix2 e (0 : Fin 1)) = ix1 e := by
  funext a
  match a with
  | ⟨0, _⟩ => rfl

/-- The reference's scatter record is the vector scatter's. -/
theorem record_eq : scatter_S20_S16777216x1_S16777216_n_0_0_1
    = Cert.Lib.VecPass.scD1 20 16777216 scatter_S20_S16777216x1_S16777216_n_0_0_1_wf := rfl

/-- The scatter-add at slot b is the tally of slot b. -/
theorem scatter_apply (x0 : (⟨S16777216x3, .f32⟩ : BufTy).Contents (Elt Ideal))
    (x1 : (⟨S16777216, .f32⟩ : BufTy).Contents (Elt Ideal)) (b : Fin 20) :
    val_main_v23 (F := Ideal) x0 x1 (ix1 b) = tally x0 x1 b := by
  unfold val_main_v23
  refine (Cert.Lib.HostScatterVec.hostScatter_apply scatter_S20_S16777216x1_S16777216_n_0_0_1_wf scatter_S20_S16777216x1_S16777216_n_0_0_1
    record_eq (val_main_v21 (F := Ideal)) (val_main_v22 (F := Ideal) x0) (val_main_v19 (F := Ideal) x0 x1) b).trans ?_
  rw [val_main_v21_apply, val_main_cst_5_apply, Ideal.ofBits_def, Ideal.ofBits_zero_f32, zero_add]
  unfold tally
  refine Finset.sum_congr rfl fun e _ => ?_
  rw [val_main_v22_apply, indexColumn, slot_apply, load_apply]
  rfl

/-- The reference's result is the surface density of its arguments. -/
theorem result_eq (x0 : (⟨S16777216x3, .f32⟩ : BufTy).Contents (Elt Ideal))
    (x1 : (⟨S16777216, .f32⟩ : BufTy).Contents (Elt Ideal)) (x2 : (⟨S20, .f32⟩ : BufTy).Contents (Elt Ideal)) :
    val_main_v24 (F := Ideal) x0 x1 x2 = density x0 x1 x2 := by
  funext i
  obtain ⟨b, rfl⟩ : ∃ b : Fin 20, i = ix1 b := ⟨i 0, eq_ix1 i⟩
  rw [val_main_v24_apply, scatter_apply]
  rfl

end Cert.ReferenceIdeal.Tally

end
-- ==== Proof.lean ====
/-
  Mass per ring over ring area: a streaming histogram against a scatter-add.

  Both programs take N = 16777216 points (columns 0 and 1 of the positions are the planar coordinates), their
  masses, and the areas of 20 rings half a unit wide. A point's ring number is the integer part of twice its planar
  radius; the point is counted when 0 <= ring < 20, and its slot is the ring number clipped into [0, 19]. The result
  at slot b is the sum, over the points whose slot is b, of the masses of the counted ones, divided by area b.

  The kernel streams the points in 1024 blocks of 16384 rows: each grid point multiplies the one-hot rows of the
  block's slots by the block's masked masses, sums the columns, and adds the twenty sums to a histogram kept in
  place across the grid (zeroed at the first point, written back after the last); two host operations then recast
  the histogram and divide by the areas. The reference computes the ring number with a division by one half where
  the kernel multiplies by two, scatter-adds the masked masses into twenty zeros at the slots, and divides by the
  areas.

  Over the extended reals the two are one function of the arguments (Cert.Rings.density): dividing by one half
  is doubling at every extended real; a one-hot entry times a mass is the mass or zero; the scatter-add at slot b
  is zero plus the sum of the masked masses whose slot is b; and the sum over all rows is the sum over the blocks
  of the block sums, since addition of extended reals is commutative and associative. No finiteness is used.
  The kernel's value is read off its frame run (the accumulation by induction on the grid point), the reference's
  off its run, one operation at a time. The idealization rewrote nothing, so it preserves the kernel trivially.
-/
import proofs.«138472_j75222057222756_1_alg».proof.Defs
import proofs.«138472_j75222057222756_1_alg».proof.Proof.Gen.Kernel
import proofs.«138472_j75222057222756_1_alg».proof.Proof.Gen.Kernel.Skeleton
import proofs.«138472_j75222057222756_1_alg».proof.Proof.Gen.Kernel.Launch
import proofs.«138472_j75222057222756_1_alg».proof.Proof.Gen.Kernel.Points
import proofs.«138472_j75222057222756_1_alg».proof.Proof.Gen.Kernel.Frame
import proofs.«138472_j75222057222756_1_alg».proof.Proof.Gen.KernelIdeal
import proofs.«138472_j75222057222756_1_alg».proof.Proof.Gen.KernelIdeal.Skeleton
import proofs.«138472_j75222057222756_1_alg».proof.Proof.Gen.KernelIdeal.Launch
import proofs.«138472_j75222057222756_1_alg».proof.Proof.Gen.KernelIdeal.Points
import proofs.«138472_j75222057222756_1_alg».proof.Proof.Gen.KernelIdeal.Frame
import proofs.«138472_j75222057222756_1_alg».proof.Proof.Gen.ReferenceIdeal
import proofs.«138472_j75222057222756_1_alg».proof.Proof.Gen.ReferenceIdeal.Run
import proofs.«138472_j75222057222756_1_alg».proof.Proof.Gen.ReferenceIdeal.Read
import proofs.«138472_j75222057222756_1_alg».proof.Proof.Gen.Pre_finite_inputs
import proofs.«138472_j75222057222756_1_alg».proof.Proof.Surface
import proofs.«138472_j75222057222756_1_alg».proof.Proof.RefTally
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the surface density of those arguments in
    their result buffers. -/
theorem algebraic : Cert.algebraic_KernelIdeal_ReferenceIdeal := by
  intro m ρ m' ρ' _ hagree
  refine ⟨fun c => Cert.Rings.density (R := 16777216)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Surface.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Tally.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
